-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4096x1024 : Shape := ⟨2, ![4096, 1024]⟩
abbrev S4096 : Shape := ⟨1, ![4096]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x1024 .f32) (main_arg1 : FVec F S4096x1024 .f32) (main_arg2 : FVec F S4096x1024 .f32) (main_arg3 : FVec F S4096 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x1024 : Shape := ⟨3, ![4, 2048, 1024]⟩
abbrev S4096x1024 : Shape := ⟨2, ![4096, 1024]⟩
abbrev S4096 : Shape := ⟨1, ![4096]⟩
abbrev S8192x1024 : Shape := ⟨2, ![8192, 1024]⟩
abbrev S1x4096 : Shape := ⟨2, ![1, 4096]⟩
abbrev S8192x4096 : Shape := ⟨2, ![8192, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S4x2048x4096 : Shape := ⟨3, ![4, 2048, 4096]⟩

abbrev nBuf : Space → Nat
  | .hbm => 10
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S4096x1024, .f32⟩
  | .hbm, ⟨3, _⟩ => ⟨S4096, .f32⟩
  | .hbm, ⟨4, _⟩ => ⟨S8192x1024, .f32⟩
  | .hbm, ⟨5, _⟩ => ⟨S4096x1024, .bf16⟩
  | .hbm, ⟨6, _⟩ => ⟨S4096x1024, .bf16⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S256x1024, .f32⟩
  | .local _ .vmem, ⟨1, _⟩ => ⟨S256x1024, .f32⟩
  | .local _ .vmem, ⟨2, _⟩ => ⟨S4096x1024, .bf16⟩
  | .local _ .vmem, ⟨3, _⟩ => ⟨S4096x1024, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x1024_S8192x1024 : S4x2048x1024.ShapeCasts S8192x1024
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S256x4096_S256 : S256x4096.Reduces [1] S256
  shapeCasts_S256_S256x1 : S256.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S8192x4096_S4x2048x4096 : S8192x4096.ShapeCasts S4x2048x4096
  dot_S256x1024_S4096x1024_S256x4096_1_1_0_0_n_n_wf : DotDims.WF S256x1024 S4096x1024 S256x4096 [1] [1] [0] [0] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4096x1024 : Shape := ⟨2, ![4096, 1024]⟩
abbrev S4096 : Shape := ⟨1, ![4096]⟩
abbrev S8192x1024 : Shape := ⟨2, ![8192, 1024]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S4x2048x4096 : Shape := ⟨3, ![4, 2048, 4096]⟩
abbrev S1x1x4096 : Shape := ⟨3, ![1, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S4096x1024, .f32⟩
  | .hbm, ⟨3, _⟩ => ⟨S4096, .f32⟩
  | .hbm, ⟨4, _⟩ => ⟨S8192x1024, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S8192x1024, .f32⟩
  | .hbm, ⟨21, _⟩ => ⟨S8192x1024, .f32⟩
  | .hbm, ⟨22, _⟩ => ⟨S4x2048x1024, .f32⟩
  | .hbm, ⟨23, _⟩ => ⟨S4x2048x4096, .f32⟩
  | .hbm, ⟨24, _⟩ => ⟨S1x1x4096, .f32⟩
  | .hbm, ⟨25, _⟩ => ⟨S4x2048x4096, .f32⟩
  | .hbm, ⟨26, _⟩ => ⟨S4x2048x4096, .f32⟩
  | .hbm, ⟨27, _⟩ => ⟨S_, .f32⟩
  | .hbm, ⟨28, _⟩ => ⟨S4x2048x4096, .f32⟩
  | .hbm, ⟨29, _⟩ => ⟨S4x2048x4096, .i1⟩
  | .hbm, ⟨30, _⟩ => ⟨S_, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  shapeCasts_S4x2048x1024_S8192x1024 : S4x2048x1024.ShapeCasts S8192x1024
  reducesTo_S8192x4096_S8192_d1 : S8192x4096.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  shapeCasts_S8192x1024_S4x2048x1024 : S8192x1024.ShapeCasts S4x2048x1024
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S8192x1024_S4096x1024_S8192x4096_1_1_0_0_n_n_wf : DotDims.WF S8192x1024 S4096x1024 S8192x4096 [1] [1] [0] [0] [] []
  dot_S8192x4096_S4096x1024_S8192x1024_1_0_0_1_n_n_wf : DotDims.WF S8192x4096 S4096x1024 S8192x1024 [1] [0] [0] [1] [] []
  dot_S4x2048x1024_S4096x1024_S4x2048x4096_2_1_01_0_n_n_wf : DotDims.WF S4x2048x1024 S4096x1024 S4x2048x4096 [2] [1] [0, 1] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S4x2048x1024_S4096x1024_S4x2048x4096_2_1_01_0_n_n : DotDims S4x2048x1024 S4096x1024 S4x2048x4096 where
  lhsContracting := [2]
  rhsContracting := [1]
  lhsNonContracting := [0, 1]
  rhsNonContracting := [0]
  lhsBatch := []
  rhsBatch := []
  wf := dot_S4x2048x1024_S4096x1024_S4x2048x4096_2_1_01_0_n_n_wf

class Facts : Prop extends Facts₀ where

variable [Facts]
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.RowLaw.lean ====
/-
  One output row as a function of one input row.

  Every row of the result depends on one row `x` of the input (1024 numbers), on the whole codebook `E`
  (4096 rows of 1024), on the whole weight matrix `W` (4096 rows of 1024) and on the bias (4096 numbers), and on
  nothing else:

    score c   = Σ_d x d · E c d                          the row against codebook row c
    peak      = max over c of score c, from −∞
    weight c  = exp (score c − peak)
    mass      = Σ_c weight c
    share c   = weight c / mass                          the softmax of the scores
    mixed d   = Σ_c share c · E c d                      the codebook rows averaged by their shares
    carried d = x d + mixed d                            the residual
    affine q  = (Σ_d carried d · W q d) + bias q         the linear layer
    out q     = affine q where affine q ≥ 0, else slope · affine q

  all on the extended reals, every sum a finite sum in one piece. The two float constants (the zero the
  comparison is against and the slope) stay the words both programs carry; neither is evaluated.
-/
import Idealize.ShloMosaic.PureOps.Ideal
import Idealize.ShloMosaic.Lib.ValueIdx

noncomputable section

open scoped BigOperators

namespace Cert.RowLaw

open Idealize.ShloMosaic Idealize.ShloMosaic.ValueIdx

/-- The shape of the codebook and of the weight matrix. -/
abbrev Book : Shape := ⟨2, ![4096, 1024]⟩

variable (x : Fin 1024 → EReal) (E W : Book.Idx → EReal) (bias : Fin 4096 → EReal)

/-- The row against codebook row `c`. -/
def score (c : Fin 4096) : EReal := ∑ d : Fin 1024, x d * E (ix2 c d)

/-- The largest score, the maximum taken from the word for −∞. -/
def peak : EReal := (Finset.univ : Finset (Fin 4096)).fold max (Ideal.ofBits .f32 0xFF800000#32) (score x E)

/-- The unnormalised softmax weight of codebook row `c`. -/
def weight (c : Fin 4096) : EReal := Ideal.exp (score x E c - peak x E)

/-- The normaliser. -/
def mass : EReal := ∑ c : Fin 4096, weight x E c

/-- The softmax share of codebook row `c`. -/
def share (c : Fin 4096) : EReal := Ideal.div (weight x E c) (mass x E)

/-- The codebook rows averaged by their shares, at column `d`. -/
def mixed (d : Fin 1024) : EReal := ∑ c : Fin 4096, share x E c * E (ix2 c d)

/-- The residual: the row plus its attended codebook. -/
def carried (d : Fin 1024) : EReal := x d + mixed x E d

/-- The linear layer at output column `q`. -/
def affine (q : Fin 4096) : EReal := (∑ d : Fin 1024, carried x E d * W (ix2 q d)) + bias q

/-- The leaky rectifier: the value where it is at least zero, the slope's multiple elsewhere. -/
def leaky (y : EReal) : EReal :=
  Scalar.select (Ideal.cmp .oge y (Ideal.ofBits .f32 0x00000000#32)) y (Ideal.ofBits .f32 0x3C23D70A#32 * y)

/-- The output row at column `q`. -/
def out (q : Fin 4096) : EReal := leaky (affine x E W bias q)

/-- The output row depends on the input row through its entries only, and on the column through its value. -/
theorem out_congr {f g : Fin 1024 → EReal} (hfg : ∀ d, f d = g d) {E E' W W' : Book.Idx → EReal} (hE : E = E') (hW : W = W')
    {b b' : Fin 4096 → EReal} (hb : ∀ q, b q = b' q) {q q' : Fin 4096} (hq : q = q') :
    out f E W b q = out g E' W' b' q' := by
  obtain rfl : f = g := funext hfg
  obtain rfl : b = b' := funext hb
  subst hE hW hq
  rfl

/-- The whole result: entry `(a, s, q)` is the output row of input row `(a, s)`, at column `q`. -/
def result (X : (⟨3, ![4, 2048, 1024]⟩ : Shape).Idx → EReal) (E W : Book.Idx → EReal)
    (b : (⟨1, ![4096]⟩ : Shape).Idx → EReal) : (⟨3, ![4, 2048, 4096]⟩ : Shape).Idx → EReal :=
  fun i => out (fun d => X (ix3 (⟨(i 0).val, (i 0).isLt⟩ : Fin 4) (⟨(i 1).val, (i 1).isLt⟩ : Fin 2048) d)) E W
    (fun q => b (ix1 q)) (⟨(i 2).val, (i 2).isLt⟩ : Fin 4096)

theorem result_apply (X : (⟨3, ![4, 2048, 1024]⟩ : Shape).Idx → EReal) (E W : Book.Idx → EReal)
    (b : (⟨1, ![4096]⟩ : Shape).Idx → EReal) (a : Fin 4) (s : Fin 2048) (q : Fin 4096) :
    result X E W b (ix3 a s q) = out (fun d => X (ix3 a s d)) E W (fun q => b (ix1 q)) q := rfl

/-- The maximum from a starting value is at least that value, so taking the maximum with it again changes
    nothing. -/
theorem max_start_fold {ι : Type} (s : Finset ι) (b : EReal) (f : ι → EReal) :
    max b (s.fold max b f) = s.fold max b f :=
  max_eq_right ((Finset.le_fold_max b).mpr (Or.inl le_rfl))

end Cert.RowLaw

end
-- ==== Proof.RefRow.lean ====
/-
  The reference, read row by row.

  The reference flattens the input to 8192 rows, and every later stage of it, read at row `n`, depends on that row
  alone: the scores are the row against the codebook, the softmax is taken along the row's scores, the attended
  codebook is added back to the row, and the linear layer is applied to the result. Each stage below is read at
  an index and identified with the corresponding quantity of the row law, for ANY description `r` of row `n`
  of the flattened input; at the end the row `n = 2048 a + s` of the flattened input is row `(a, s)` of the
  input itself, and the reference's result is the row law's whole result.
-/
import proofs.«429630_j76433238000392_3_alg».proof.Proof.Gen.ReferenceIdeal.Read
import proofs.«429630_j76433238000392_3_alg».proof.Proof.LibColumn
import proofs.«429630_j76433238000392_3_alg».proof.Proof.RowLaw

noncomputable section

open scoped BigOperators

namespace Cert.RefRow

open Cert.ReferenceIdeal Cert.ReferenceIdeal.Gen Cert.ReferenceIdeal.Read
open Idealize.ShloMosaic Idealize.ShloMosaic.ValueIdx Cert.RowLaw

variable (x0 : (⟨S4x2048x1024, .f32⟩ : BufTy).Contents (Elt Ideal))
variable (x1 x2 : (⟨S4096x1024, .f32⟩ : BufTy).Contents (Elt Ideal))
variable (x3 : (⟨S4096, .f32⟩ : BufTy).Contents (Elt Ideal))
variable (n : Fin 8192) (r : Fin 1024 → EReal)

/-- The scores of row `n`. -/
theorem score_at (hr : ∀ d, val_main_v0 (F := Ideal) x0 (ix2 n d) = r d) (c : Fin 4096) :
    val_main_v1 (F := Ideal) x0 x1 (ix2 n c) = score r x1 c := by
  rw [val_main_v1_apply]
  unfold score
  refine Finset.sum_congr rfl fun k _ => ?_
  have el : lidx_main_v1 (ix2 n c) k = ix2 n k :=
    funext fun a => Fin.ext (by match a with | ⟨0, _⟩ => rfl | ⟨1, _⟩ => rfl)
  have er : ridx_main_v1 (ix2 n c) k = ix2 c k :=
    funext fun a => Fin.ext (by match a with | ⟨0, _⟩ => rfl | ⟨1, _⟩ => rfl)
  rw [el, er, hr]

/-- The row's largest score: the reduction's maximum from −∞, and the further maximum with −∞ that follows it,
    which changes nothing. -/
theorem peak_at (hr : ∀ d, val_main_v0 (F := Ideal) x0 (ix2 n d) = r d) :
    val_main_v4 (F := Ideal) x0 x1 (ix1 n) = peak r x1 := by
  have h2 : val_main_v2 (F := Ideal) x0 x1 (ix1 n)
      = (Finset.univ : Finset (Fin 4096)).fold max (Ideal.ofBits .f32 0xFF800000#32) (score r x1) := by
    unfold val_main_v2
    refine (Cert.LibColumn.hostMaxAxis1_apply (a := 8192) (b := 4096) (φ := .f32) (val_main_v1 (F := Ideal) x0 x1)
      (val_main_cst (F := Ideal)) reducesTo_S8192x4096_S8192_d1 (by decide) h_S_ n).trans ?_
    rw [show (fun k => val_main_v1 (F := Ideal) x0 x1 (ix2 n k)) = score r x1 from
      funext fun k => score_at x0 x1 n r hr k]
    rfl
  rw [val_main_v4_apply, h2, val_main_v3_apply]
  exact max_start_fold _ _ _

/-- The unnormalised softmax weights of row `n`. -/
theorem weight_at (hr : ∀ d, val_main_v0 (F := Ideal) x0 (ix2 n d) = r d) (c : Fin 4096) :
    val_main_v8 (F := Ideal) x0 x1 (ix2 n c) = weight r x1 c := by
  have e : idx_main_v5 (idx_main_v6 (ix2 n c)) = ix1 n :=
    funext fun a => Fin.ext (by match a with | ⟨0, _⟩ => rfl)
  rw [val_main_v8_apply, val_main_v7_apply, val_main_v6_apply, val_main_v5_apply, e, peak_at x0 x1 n r hr,
    score_at x0 x1 n r hr]
  rfl

/-- The normaliser of row `n`: the sum of its weights, from zero. -/
theorem mass_at (hr : ∀ d, val_main_v0 (F := Ideal) x0 (ix2 n d) = r d) :
    val_main_v9 (F := Ideal) x0 x1 (ix1 n) = mass r x1 := by
  rw [val_main_v9_apply]
  have hz : (val_main_cst_1 (F := Ideal)) (Shape.Idx.first h_S_) = 0 := Ideal.ofBits_zero_f32
  rw [hz, zero_add]
  unfold mass
  refine Finset.sum_congr rfl fun k _ => ?_
  have e : idx_main_v9 (ix1 n) k = ix2 n k :=
    funext fun a => Fin.ext (by match a with | ⟨0, _⟩ => rfl | ⟨1, _⟩ => rfl)
  rw [e, weight_at x0 x1 n r hr]

/-- The softmax shares of row `n`. -/
theorem share_at (hr : ∀ d, val_main_v0 (F := Ideal) x0 (ix2 n d) = r d) (c : Fin 4096) :
    val_main_v12 (F := Ideal) x0 x1 (ix2 n c) = share r x1 c := by
  have e : idx_main_v10 (idx_main_v11 (ix2 n c)) = ix1 n :=
    funext fun a => Fin.ext (by match a with | ⟨0, _⟩ => rfl)
  rw [val_main_v12_apply, val_main_v11_apply, val_main_v10_apply, e, mass_at x0 x1 n r hr, weight_at x0 x1 n r hr]
  rfl

/-- The codebook averaged by row `n`'s shares. -/
theorem mixed_at (hr : ∀ d, val_main_v0 (F := Ideal) x0 (ix2 n d) = r d) (d : Fin 1024) :
    val_main_v13 (F := Ideal) x0 x1 (ix2 n d) = mixed r x1 d := by
  rw [val_main_v13_apply]
  unfold mixed
  refine Finset.sum_congr rfl fun k _ => ?_
  have el : lidx_main_v13 (ix2 n d) k = ix2 n k :=
    funext fun a => Fin.ext (by match a with | ⟨0, _⟩ => rfl | ⟨1, _⟩ => rfl)
  have er : ridx_main_v13 (ix2 n d) k = ix2 k d :=
    funext fun a => Fin.ext (by match a with | ⟨0, _⟩ => rfl | ⟨1, _⟩ => rfl)
  rw [el, er, share_at x0 x1 n r hr]

/-- The residual of row `n`. -/
theorem carried_at (hr : ∀ d, val_main_v0 (F := Ideal) x0 (ix2 n d) = r d) (d : Fin 1024) :
    val_main_v14 (F := Ideal) x0 x1 (ix2 n d) = carried r x1 d := by
  rw [val_main_v14_apply, mixed_at x0 x1 n r hr, hr]
  rfl

/-- Row `2048 a + s` of the flattened input is row `(a, s)` of the input. -/
theorem flat_row (a : Fin 4) (s : Fin 2048) (d : Fin 1024) :
    val_main_v0 (F := Ideal) x0 (ix2 (⟨a.val * 2048 + s.val, by omega⟩ : Fin 8192) d) = x0 (ix3 a s d) := by
  rw [val_main_v0_apply]
  refine congrArg x0 (funext fun ax => Fin.ext ?_)
  have ha := a.isLt; have hs := s.isLt; have hd := d.isLt
  match ax with
  | ⟨0, _⟩ => show ((a.val * 2048 + s.val) * 1024 + d.val) / 2097152 = a.val; omega
  | ⟨1, _⟩ => show ((a.val * 2048 + s.val) * 1024 + d.val) / 1024 % 2048 = s.val; omega
  | ⟨2, _⟩ => show ((a.val * 2048 + s.val) * 1024 + d.val) % 1024 = d.val; omega

/-- The linear layer at `(a, s, q)`: the residual of row `(a, s)`, reshaped back, against weight row `q`, plus
    the bias. -/
theorem affine_at (a : Fin 4) (s : Fin 2048) (q : Fin 4096) :
    val_main_v19 (F := Ideal) x0 x1 x2 x3 (ix3 a s q)
      = affine (fun d => x0 (ix3 a s d)) x1 x2 (fun q => x3 (ix1 q)) q := by
  have ha := a.isLt; have hs := s.isLt
  rw [val_main_v19_apply, val_main_v16_apply, val_main_v18_apply, val_main_v17_apply]
  unfold affine
  refine congrArg₂ (· + ·) (Finset.sum_congr rfl fun k _ => ?_) (congrArg x3 ?_)
  · have hk := k.isLt
    have el : idx_main_v15 (lidx_main_v16 (ix3 a s q) k) = ix2 (⟨a.val * 2048 + s.val, by omega⟩ : Fin 8192) k :=
      funext fun ax => Fin.ext (by
        match ax with
        | ⟨0, _⟩ => show ((a.val * 2048 + s.val) * 1024 + k.val) / 1024 = a.val * 2048 + s.val; omega
        | ⟨1, _⟩ => show ((a.val * 2048 + s.val) * 1024 + k.val) % 1024 = k.val; omega)
    have er : ridx_main_v16 (ix3 a s q) k = ix2 q k :=
      funext fun ax => Fin.ext (by match ax with | ⟨0, _⟩ => rfl | ⟨1, _⟩ => rfl)
    rw [val_main_v15_apply, el, er,
      carried_at x0 x1 _ (fun d => x0 (ix3 a s d)) (fun d => flat_row x0 a s d)]
  · exact funext fun ax => Fin.ext (by match ax with | ⟨0, _⟩ => rfl)

/-- THE REFERENCE'S RESULT is the row law's whole result of the four arguments. -/
theorem result_eq : val_main_v24 (F := Ideal) x0 x1 x2 x3 = result x0 x1 x2 x3 := by
  funext i
  obtain ⟨a, s, q, rfl⟩ : ∃ (a : Fin 4) (s : Fin 2048) (q : Fin 4096), i = ix3 a s q := ⟨i 0, i 1, i 2, eq_ix3 i⟩
  rw [result_apply, val_main_v24_apply, val_main_v21_apply, val_main_v23_apply, val_main_v20_apply, val_main_v22_apply,
    affine_at x0 x1 x2 x3 a s q]
  rfl

end Cert.RefRow

end
-- ==== Proof.TileRow.lean ====
/-
  One tile of the kernel, read row by row.

  At a grid point the kernel holds 256 rows of the flattened input, the whole codebook, the whole weight matrix
  and the bias as one row, and stores a 256 × 4096 tile computed from them. Row `p` of the tile depends on row
  `p` of the 256 input rows alone, and it is the row law's output of that row: the three matrix products are the
  law's three sums (each contraction in one piece, into a zero accumulator), the maximum and the sum along a
  row are the law's peak and mass, and the changes of float format are the identity.
-/
import proofs.«429630_j76433238000392_3_alg».proof.Proof.Gen.KernelIdeal.Skeleton
import proofs.«429630_j76433238000392_3_alg».proof.Proof.LibColumn
import proofs.«429630_j76433238000392_3_alg».proof.Proof.RowLaw
import Idealize.ShloMosaic.Lib.ValueLayout
import Idealize.ShloMosaic.Lib.Pipeline.Value
import Idealize.ShloMosaic.PureOps.Ideal.Laws

noncomputable section

open scoped BigOperators

namespace Cert.TileRow

open Cert.KernelIdeal Cert.KernelIdeal.Gen
open Idealize.ShloMosaic Idealize.ShloMosaic.ValueIdx Cert.RowLaw

/-! ## The two kinds of matrix product of the tile, read at an index -/

/-- Rows against rows: the product that contracts the second axis of both operands. -/
abbrev DRows := dot_S256x1024_S4096x1024_S256x4096_1_1_0_0_n_n
/-- Rows against columns: the product that contracts the left operand's second axis with the right's first. -/
abbrev DCols := dot_S256x4096_S4096x1024_S256x1024_1_0_0_1_n_n

theorem lhs_rows_0 (i : S256x4096.Idx) (q : dot_S256x1024_S4096x1024_S256x4096_1_1_0_0_n_n.contr.Idx) :
    (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
theorem lhs_rows_1 (i : S256x4096.Idx) (q : dot_S256x1024_S4096x1024_S256x4096_1_1_0_0_n_n.contr.Idx) :
    (dot_S256x1024_S4096x1024_S256x4096_1_1_0_0_n_n.lhsIdx i q 1).val = (q ⟨0, by decide⟩).val :=
  dot_S256x1024_S4096x1024_S256x4096_1_1_0_0_n_n.lhsIdx_val_of_single rfl i q
theorem rhs_rows_0 (i : S256x4096.Idx) (q : dot_S256x1024_S4096x1024_S256x4096_1_1_0_0_n_n.contr.Idx) :
    (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
theorem rhs_rows_1 (i : S256x4096.Idx) (q : dot_S256x1024_S4096x1024_S256x4096_1_1_0_0_n_n.contr.Idx) :
    (dot_S256x1024_S4096x1024_S256x4096_1_1_0_0_n_n.rhsIdx i q 1).val = (q ⟨0, by decide⟩).val :=
  dot_S256x1024_S4096x1024_S256x4096_1_1_0_0_n_n.rhsIdx_val_of_single rfl i q

/-- Rows against rows into a zero accumulator: entry `(p, c)` is row `p` of the left against row `c` of the right. -/
theorem matmul_rows_at {φ₁ φ₂ : FTy} (l : FVec Ideal S256x1024 φ₁) (r : FVec Ideal S4096x1024 φ₂) (p : Fin 256) (c : Fin 4096) :
    matmul dot_S256x1024_S4096x1024_S256x4096_1_1_0_0_n_n none l r (constant (F := Ideal) S256x4096 .f32 0x00000000#32) (ix2 p c)
      = ∑ k : Fin 1024, l (ix2 p k) * r (ix2 c k) := by
  refine (Ideal.matmul_constant_zero_apply dot_S256x1024_S4096x1024_S256x4096_1_1_0_0_n_n none l r (ix2 p c)).trans ?_
  rw [← Equiv.sum_comp (ValueIdx.contrEquiv1 dot_S256x1024_S4096x1024_S256x4096_1_1_0_0_n_n 1024 rfl rfl).symm]
  refine Finset.sum_congr rfl fun k _ => ?_
  have hk := ValueIdx.contrEquiv1_symm_val dot_S256x1024_S4096x1024_S256x4096_1_1_0_0_n_n 1024 rfl rfl k
  have el : dot_S256x1024_S4096x1024_S256x4096_1_1_0_0_n_n.lhsIdx (ix2 p c) ((ValueIdx.contrEquiv1 dot_S256x1024_S4096x1024_S256x4096_1_1_0_0_n_n 1024 rfl rfl).symm k) = ix2 p k := funext fun a => Fin.ext (by
    match a with
    | ⟨0, _⟩ => exact lhs_rows_0 _ _
    | ⟨1, _⟩ => exact (lhs_rows_1 _ _).trans hk)
  have er : dot_S256x1024_S4096x1024_S256x4096_1_1_0_0_n_n.rhsIdx (ix2 p c) ((ValueIdx.contrEquiv1 dot_S256x1024_S4096x1024_S256x4096_1_1_0_0_n_n 1024 rfl rfl).symm k) = ix2 c k := funext fun a => Fin.ext (by
    match a with
    | ⟨0, _⟩ => exact rhs_rows_0 _ _
    | ⟨1, _⟩ => exact (rhs_rows_1 _ _).trans hk)
  rw [el, er]

theorem lhs_cols_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs_cols_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhs_cols_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhs_cols_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- Rows against columns into a zero accumulator: entry `(p, d)` is row `p` of the left against column `d` of the
    right. -/
theorem matmul_cols_at {φ₁ φ₂ : FTy} (l : FVec Ideal S256x4096 φ₁) (r : FVec Ideal S4096x1024 φ₂) (p : Fin 256) (d : Fin 1024) :
    matmul dot_S256x4096_S4096x1024_S256x1024_1_0_0_1_n_n none l r (constant (F := Ideal) S256x1024 .f32 0x00000000#32) (ix2 p d)
      = ∑ k : Fin 4096, l (ix2 p k) * r (ix2 k d) := by
  refine (Ideal.matmul_constant_zero_apply dot_S256x4096_S4096x1024_S256x1024_1_0_0_1_n_n none l r (ix2 p d)).trans ?_
  rw [← Equiv.sum_comp (ValueIdx.contrEquiv1 dot_S256x4096_S4096x1024_S256x1024_1_0_0_1_n_n 4096 rfl rfl).symm]
  refine Finset.sum_congr rfl fun k _ => ?_
  have hk := ValueIdx.contrEquiv1_symm_val dot_S256x4096_S4096x1024_S256x1024_1_0_0_1_n_n 4096 rfl rfl k
  have el : dot_S256x4096_S4096x1024_S256x1024_1_0_0_1_n_n.lhsIdx (ix2 p d) ((ValueIdx.contrEquiv1 dot_S256x4096_S4096x1024_S256x1024_1_0_0_1_n_n 4096 rfl rfl).symm k) = ix2 p k := funext fun a => Fin.ext (by
    match a with
    | ⟨0, _⟩ => exact lhs_cols_0 _ _
    | ⟨1, _⟩ => exact (lhs_cols_1 _ _).trans hk)
  have er : dot_S256x4096_S4096x1024_S256x1024_1_0_0_1_n_n.rhsIdx (ix2 p d) ((ValueIdx.contrEquiv1 dot_S256x4096_S4096x1024_S256x1024_1_0_0_1_n_n 4096 rfl rfl).symm k) = ix2 k d := funext fun a => Fin.ext (by
    match a with
    | ⟨0, _⟩ => exact (rhs_cols_0 _ _).trans hk
    | ⟨1, _⟩ => exact rhs_cols_1 _ _)
  rw [el, er]

/-! ## The tile's stages -/

variable (v0 : FVec Ideal S256x1024 .f32) (v2 v19 : FVec Ideal S4096x1024 .bf16) (v22 : FVec Ideal S1x4096 .f32)

/-- The tile's scores: its rows, narrowed, against the codebook's rows. -/
def tScores : FVec Ideal S256x4096 .f32 :=
  matmul dot_S256x1024_S4096x1024_S256x4096_1_1_0_0_n_n none
    (truncf .bf16 (shapeCast S256x1024 v0 shapeCasts_S256x1024_S256x1024 : FVec Ideal S256x1024 .f32) bitsLt_bf16_f32)
    (shapeCast S4096x1024 v2 shapeCasts_S4096x1024_S4096x1024 : FVec Ideal S4096x1024 .bf16) (constant S256x4096 .f32 0x00000000#32)

/-- The unnormalised softmax weights along each row. -/
def tWeights : FVec Ideal S256x4096 .f32 :=
  exp (subf (tScores v0 v2) (broadcastTo S256x4096 (shapeCast S256x1
    (multiReduction .maximumf [1] S256 (tScores v0 v2) 0xFF800000#32 reduces_S256x4096_S256 (.inl rfl) rfl)
    shapeCasts_S256_S256x1) broadcasts_S256x1_S256x4096))

/-- The softmax shares along each row. -/
def tShares : FVec Ideal S256x4096 .f32 :=
  divf (tWeights v0 v2) (broadcastTo S256x4096 (shapeCast S256x1
    (multiReduction .add [1] S256 (tWeights v0 v2) 0x00000000#32 reduces_S256x4096_S256 (.inl rfl) rfl)
    shapeCasts_S256_S256x1) broadcasts_S256x1_S256x4096)

/-- The residual: the rows plus the codebook averaged by their shares. -/
def tCarried : FVec Ideal S256x1024 .f32 :=
  addf (shapeCast S256x1024 v0 shapeCasts_S256x1024_S256x1024 : FVec Ideal S256x1024 .f32)
    (matmul dot_S256x4096_S4096x1024_S256x1024_1_0_0_1_n_n none (truncf .bf16 (tShares v0 v2) bitsLt_bf16_f32)
      (shapeCast S4096x1024 v2 shapeCasts_S4096x1024_S4096x1024 : FVec Ideal S4096x1024 .bf16) (constant S256x1024 .f32 0x00000000#32))

/-- The linear layer of the tile. -/
def tAffine : FVec Ideal S256x4096 .f32 :=
  addf (matmul dot_S256x1024_S4096x1024_S256x4096_1_1_0_0_n_n none (truncf .bf16 (tCarried v0 v2) bitsLt_bf16_f32)
      (shapeCast S4096x1024 v19 shapeCasts_S4096x1024_S4096x1024 : FVec Ideal S4096x1024 .bf16) (constant S256x4096 .f32 0x00000000#32))
    (broadcastTo S256x4096 (shapeCast S1x4096 v22 shapeCasts_S1x4096_S1x4096 : FVec Ideal S1x4096 .f32) broadcasts_S1x4096_S256x4096)

/-- The stored tile is the leaky rectifier of the linear layer, entry by entry. -/
theorem pay_eq : k0_pay1 (F := Ideal) v0 v2 v19 v22
    = select (cmpf .oge (tAffine v0 v2 v19 v22) (broadcast S256x4096 (Scalar.ofBits .f32 0x00000000#32)))
        (tAffine v0 v2 v19 v22)
        (mulf (broadcast S256x4096 (Scalar.ofBits .f32 0x3C23D70A#32)) (tAffine v0 v2 v19 v22)) := rfl

variable (p : Fin 256)

theorem tScores_at (c : Fin 4096) : tScores v0 v2 (ix2 p c) = score (fun d => v0 (ix2 p d)) v2 c := by
  unfold tScores
  rw [matmul_rows_at]
  unfold score
  refine Finset.sum_congr rfl fun k _ => ?_
  rw [truncf_apply, shapeCast_self, shapeCast_self]

theorem tPeak_at :
    multiReduction .maximumf [1] S256 (tScores v0 v2) 0xFF800000#32 reduces_S256x4096_S256 (.inl rfl) rfl (ix1 p)
      = peak (fun d => v0 (ix2 p d)) v2 := by
  refine (Cert.LibColumn.maxAxis1_apply (a := 256) (b := 4096) (φ := .f32) (tScores v0 v2) 0xFF800000#32
    reduces_S256x4096_S256 (.inl rfl) rfl p).trans ?_
  rw [show (fun k => tScores v0 v2 (ix2 p k)) = score (fun d => v0 (ix2 p d)) v2 from
    funext fun k => tScores_at v0 v2 p k]
  rfl

theorem tWeights_at (c : Fin 4096) : tWeights v0 v2 (ix2 p c) = weight (fun d => v0 (ix2 p d)) v2 c := by
  unfold tWeights
  show Ideal.exp (tScores v0 v2 (ix2 p c) - broadcastTo S256x4096 _ broadcasts_S256x1_S256x4096 (ix2 p c)) = _
  rw [Cert.LibColumn.broadcastTo_a1_ab_apply, Cert.LibColumn.shapeCast_a_a1_apply, tPeak_at, tScores_at]
  rfl

theorem tMass_at :
    multiReduction .add [1] S256 (tWeights v0 v2) 0x00000000#32 reduces_S256x4096_S256 (.inl rfl) rfl (ix1 p)
      = mass (fun d => v0 (ix2 p d)) v2 := by
  refine (Cert.LibColumn.sumAxis1_apply (a := 256) (b := 4096) (φ := .f32) (tWeights v0 v2) 0x00000000#32
    reduces_S256x4096_S256 (.inl rfl) rfl p).trans ?_
  unfold mass
  exact Finset.sum_congr rfl fun k _ => tWeights_at v0 v2 p k

theorem tShares_at (c : Fin 4096) : tShares v0 v2 (ix2 p c) = share (fun d => v0 (ix2 p d)) v2 c := by
  unfold tShares
  show Ideal.div (tWeights v0 v2 (ix2 p c)) (broadcastTo S256x4096 _ broadcasts_S256x1_S256x4096 (ix2 p c)) = _
  rw [Cert.LibColumn.broadcastTo_a1_ab_apply, Cert.LibColumn.shapeCast_a_a1_apply, tMass_at, tWeights_at]
  rfl

theorem tCarried_at (d : Fin 1024) : tCarried v0 v2 (ix2 p d) = carried (fun d => v0 (ix2 p d)) v2 d := by
  unfold tCarried
  rw [addf_apply, matmul_cols_at, shapeCast_self]
  unfold carried mixed
  refine congrArg (v0 (ix2 p d) + ·) (Finset.sum_congr rfl fun k _ => ?_)
  rw [truncf_apply, tShares_at, shapeCast_self]

theorem tAffine_at (q : Fin 4096) :
    tAffine v0 v2 v19 v22 (ix2 p q)
      = affine (fun d => v0 (ix2 p d)) v2 v19 (fun q => v22 (ix2 (0 : Fin 1) q)) q := by
  unfold tAffine
  rw [addf_apply, matmul_rows_at, ValueIdx.broadcastTo_1b_ab_apply, shapeCast_self, shapeCast_self]
  unfold affine
  refine congrArg (· + v22 (ix2 (0 : Fin 1) q)) (Finset.sum_congr rfl fun k _ => ?_)
  rw [truncf_apply, tCarried_at]

/-- THE TILE, ROW BY ROW: entry `(p, q)` of what the body stores is the row law's output of the tile's input
    row `p`, at column `q`. -/
theorem pay_at (q : Fin 4096) :
    k0_pay1 (F := Ideal) v0 v2 v19 v22 (ix2 p q)
      = out (fun d => v0 (ix2 p d)) v2 v19 (fun q => v22 (ix2 (0 : Fin 1) q)) q := by
  rw [pay_eq, select_apply, cmpf_apply, mulf_apply, broadcast_apply, broadcast_apply, tAffine_at]
  rfl

end Cert.TileRow

end
-- ==== Proof.TileArray.lean ====
/-
  From tiles to the array, and the kernel's run.

  The grid has 32 points. Point `t` holds rows `256 t … 256 t + 255` of the flattened input, the whole codebook,
  the whole weight matrix and the bias row, and writes back rows `256 t … 256 t + 255` of the 8192 × 4096 output:
  the tiles are disjoint and fill the output, so after the run row `n` of the output is the row law's output of
  row `n` of the flattened input. The flattened input is the input reshaped, the codebook and the weights are
  the arguments narrowed (the identity on the extended reals), the bias row is the bias reshaped, and the
  program's result is the output reshaped to 4 × 2048 × 4096: entry `(a, s, q)` is the row law's output of input
  row `(a, s)` at column `q`.
-/
import proofs.«429630_j76433238000392_3_alg».proof.Proof.Gen.KernelIdeal.Frame
import proofs.«429630_j76433238000392_3_alg».proof.Proof.TileRow
import Idealize.ShloMosaic.Lib.Pipeline.Value
import Idealize.ShloMosaic.Lib.StableHlo.Run
import Idealize.ShloMosaic.Lib.Tactic

set_option maxRecDepth 16384

noncomputable section

open scoped BigOperators

namespace Cert.TileArray

open Cert.KernelIdeal Cert.KernelIdeal.Gen
open Idealize.ShloMosaic Idealize.ShloMosaic.TcCoe Idealize.SL.Sem Idealize.ShloMosaic.ValueIdx Cert.RowLaw
open Idealize.ShloMosaic.Pipeline (Dat)

variable (m : (ℓ : Loc nD τ sig) → Buf (Elt Ideal) ℓ) (ρ : Dev nD → PrngReg)

/-! ## The arrays the region finds, and the whole output as one function of them -/

/-- The flattened input as the region finds it. -/
abbrev flatX (c : Dev nD) : FVec Ideal S8192x1024 .f32 := V m c main_v0
/-- The codebook as the region finds it. -/
abbrev bookE (c : Dev nD) : FVec Ideal S4096x1024 .bf16 := V m c main_v1
/-- The weight matrix as the region finds it. -/
abbrev bookW (c : Dev nD) : FVec Ideal S4096x1024 .bf16 := V m c main_v2
/-- The bias as the region finds it: one row. -/
abbrev biasRow (c : Dev nD) : FVec Ideal S1x4096 .f32 := V m c main_v3

/-- Row `n` of the output is the row law's output of row `n` of the flattened input. -/
def tiled (X : FVec Ideal S8192x1024 .f32) (E W : FVec Ideal S4096x1024 .bf16) (B : FVec Ideal S1x4096 .f32) :
    FVec Ideal S8192x4096 .f32 :=
  fun i => out (fun d => X (ix2 (⟨(i 0).val, (i 0).isLt⟩ : Fin 8192) d)) E W (fun q => B (ix2 (0 : Fin 1) q))
    (⟨(i 1).val, (i 1).isLt⟩ : Fin 4096)

theorem tiled_apply (X : FVec Ideal S8192x1024 .f32) (E W : FVec Ideal S4096x1024 .bf16) (B : FVec Ideal S1x4096 .f32)
    (i : S8192x4096.Idx) :
    tiled X E W B i = out (fun d => X (ix2 (⟨(i 0).val, (i 0).isLt⟩ : Fin 8192) d)) E W (fun q => B (ix2 (0 : Fin 1) q))
      (⟨(i 1).val, (i 1).isLt⟩ : Fin 4096) := rfl

/-! ## Which block each window holds at a point -/

theorem hz : (![0, 0] : Fin 2 → Nat) = fun _ => 0 := funext fun a => by fin_cases a <;> rfl

/-- The index maps, decided over the grid: the input rows and the output rows move with the point, the codebook,
    the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 32 :=
  (by decide +kernel : ∀ t : Fin grid0.N, _)

/-- Every block of output rows is some point's. -/
theorem idx_onto : ∀ q0 : Fin 32, ∃ t : Fin cfg0.N, win0_4.index t = ![q0.val, 0] :=
  (by decide +kernel : ∀ q0 : Fin 32, ∃ t : Fin grid0.N, win0_4.index t = ![q0.val, 0])

/-- Row `p` of the input block at point `t` is row `256 t + p` of the flattened input. -/
theorem xblk_at (c : Dev nD) (t : Fin cfg0.N) (p : Fin 256) (d : Fin 1024) (n : Fin 8192) (hn : n.val = t.val * 256 + p.val) :
    (iblk m c 0 t : FVec Ideal S256x1024 .f32) (ix2 p d) = flatX m c (ix2 n d) := by
  obtain ⟨e00, e01, -⟩ := idx_facts t
  show V m c main_v0 (((cfg0.win 0).blk t).view.emb (ix2 p d)) = V m c main_v0 (ix2 n d)
  refine congrArg (V m c main_v0) (funext fun a => Fin.ext ?_)
  match a with
  | ⟨0, _⟩ => show win0_0.index t (0 : Fin 2) * 256 + 1 * p.val = n.val; rw [e00, hn]; omega
  | ⟨1, _⟩ => show win0_0.index t (1 : Fin 2) * 1024 + 1 * d.val = d.val; rw [e01]; omega

/-- The codebook's block at every point is the whole codebook. -/
theorem eblk_eq (c : Dev nD) (t : Fin cfg0.N) : (iblk m c 1 t : FVec Ideal S4096x1024 .bf16) = bookE m c := by
  obtain ⟨-, -, e10, e11, -⟩ := idx_facts t
  funext y
  show V m c main_v1 (((cfg0.win 1).blk t).view.emb y) = V m c main_v1 y
  refine congrArg (V m c main_v1) (funext fun a => Fin.ext ?_)
  match a with
  | ⟨0, _⟩ => show win0_1.index t (0 : Fin 2) * 4096 + 1 * (y 0).val = (y 0).val; rw [e10]; omega
  | ⟨1, _⟩ => show win0_1.index t (1 : Fin 2) * 1024 + 1 * (y 1).val = (y 1).val; rw [e11]; omega

/-- The weights' block at every point is the whole weight matrix. -/
theorem wblk_eq (c : Dev nD) (t : Fin cfg0.N) : (iblk m c 2 t : FVec Ideal S4096x1024 .bf16) = bookW m c := by
  obtain ⟨-, -, -, -, e20, e21, -⟩ := idx_facts t
  funext y
  show V m c main_v2 (((cfg0.win 2).blk t).view.emb y) = V m c main_v2 y
  refine congrArg (V m c main_v2) (funext fun a => Fin.ext ?_)
  match a with
  | ⟨0, _⟩ => show win0_2.index t (0 : Fin 2) * 4096 + 1 * (y 0).val = (y 0).val; rw [e20]; omega
  | ⟨1, _⟩ => show win0_2.index t (1 : Fin 2) * 1024 + 1 * (y 1).val = (y 1).val; rw [e21]; omega

/-- The bias's block at every point is the whole bias row. -/
theorem bblk_eq (c : Dev nD) (t : Fin cfg0.N) : (iblk m c 3 t : FVec Ideal S1x4096 .f32) = biasRow m c := by
  obtain ⟨-, -, -, -, -, -, e30, e31, -⟩ := idx_facts t
  funext y
  show V m c main_v3 (((cfg0.win 3).blk t).view.emb y) = V m c main_v3 y
  refine congrArg (V m c main_v3) (funext fun a => Fin.ext ?_)
  match a with
  | ⟨0, _⟩ => show win0_3.index t (0 : Fin 2) * 1 + 1 * (y 0).val = (y 0).val; rw [e30]; omega
  | ⟨1, _⟩ => show win0_3.index t (1 : Fin 2) * 4096 + 1 * (y 1).val = (y 1).val; rw [e31]; omega

/-! ## What a point writes back, the cover, the output array -/

/-- The tile at an index of the literal tile shape. -/
theorem pay_idx (v0 : FVec Ideal S256x1024 .f32) (v2 v19 : FVec Ideal S4096x1024 .bf16) (v22 : FVec Ideal S1x4096 .f32)
    (y : S256x4096.Idx) :
    k0_pay1 (F := Ideal) v0 v2 v19 v22 y
      = out (fun d => v0 (ix2 (⟨(y 0).val, (y 0).isLt⟩ : Fin 256) d)) v2 v19 (fun q => v22 (ix2 (0 : Fin 1) q))
          (⟨(y 1).val, (y 1).isLt⟩ : Fin 4096) :=
  (congrArg (k0_pay1 (F := Ideal) v0 v2 v19 v22) (eq_ix2 y)).trans (Cert.TileRow.pay_at v0 v2 v19 v22 _ _)

/-- WHAT POINT `t` WRITES BACK is block `t` of the tiled output. -/
theorem flushed_eq (c : Dev nD) (t : Fin cfg0.N) :
    (dats m 0 c).flushed 4 t
      = ((cfg0.win 4).blk t).view.read (Elt Ideal) (tiled (flatX m c) (bookE m c) (bookW m c) (biasRow m c)) := by
  show (cfg0.win 4).cut (grid0.coords t) ((dats m 0 c).after 4 t) = _
  rw [after0_4]
  unfold out0_4
  rw [View.canon_unit_zero hz]
  simp only [View.ld_unit_zero (S := S256x1024) hz, View.ld_unit_zero (S := S4096x1024) hz, View.ld_unit_zero (S := S1x4096) hz]
  rw [eblk_eq, wblk_eq, bblk_eq]
  obtain ⟨e00, e01, e10, e11, e20, e21, e30, e31, e40, e41, ht⟩ := idx_facts t
  funext j
  show k0_pay1 (F := Ideal) (iblk m c 0 t) (bookE m c) (bookW m c) (biasRow m c) j
    = tiled (flatX m c) (bookE m c) (bookW m c) (biasRow m c) (((cfg0.win 4).blk t).view.emb j)
  refine (pay_idx (iblk m c 0 t) (bookE m c) (bookW m c) (biasRow m c) j).trans ?_
  rw [tiled_apply]
  refine out_congr (fun d => xblk_at m c t _ d _ ?_) rfl rfl (fun _ => rfl) (Fin.ext ?_)
  · show win0_4.index t (0 : Fin 2) * 256 + 1 * (j 0).val = t.val * 256 + (j 0).val
    rw [e40]; omega
  · show (j 1).val = win0_4.index t (1 : Fin 2) * 4096 + 1 * (j 1).val
    rw [e41]; omega

/-- An index of the output is in point `t`'s block iff each coordinate is in the block's range. -/
theorem mem_blk (t : Fin cfg0.N) (i : S8192x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v4).slice (win0_4.rect t)).set ↔ _
  rw [View.set_slice_whole, Rect.mem_set_unit]
  exact Iff.rfl

/-- Every index of the output is in the block of the point that holds its row. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := idx_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- THE OUTPUT ARRAY after the run is the tiled output of the arrays the region found. -/
theorem final (c : Dev nD) :
    (dats m 0 c).arrAt 4 cfg0.N = tiled (flatX m c) (bookE m c) (bookW m c) (biasRow m c) :=
  (dats m 0 c).arrAt_eq_of_cover 4 _ (fun t _ => flushed_eq m c t) cover

end Cert.TileArray

end
-- ==== Proof.KernelRun.lean ====
/-
  The kernel's run, read: the program's result is the row law's whole result of the four arguments.

  Before the region the program reshapes the input to 8192 rows, narrows the codebook and the weights (the
  identity on the extended reals) and reshapes the bias to one row; after it, it reshapes the 8192 × 4096 output
  to 4 × 2048 × 4096. Row `2048 a + s` of the flattened input is row `(a, s)` of the input, and entry
  `(a, s, q)` of the reshaped output is entry `(2048 a + s, q)` of the output.
-/
import proofs.«429630_j76433238000392_3_alg».proof.Proof.TileArray
import Idealize.ShloMosaic.Lib.StableHlo.Run

set_option maxRecDepth 16384

noncomputable section

open scoped BigOperators

namespace Cert.KernelRun

open Cert.KernelIdeal Cert.KernelIdeal.Gen Cert.TileArray
open Idealize.ShloMosaic Idealize.ShloMosaic.TcCoe Idealize.SL.Sem Idealize.ShloMosaic.ValueIdx Cert.RowLaw
open Idealize.ShloMosaic.Pipeline (Dat)

variable (m : (ℓ : Loc nD τ sig) → Buf (Elt Ideal) ℓ) (ρ : Dev nD → PrngReg)

/-! ## The host operations before the region -/

theorem flatX_eq (c : Dev nD) :
    flatX m c = shapeCast S8192x1024 (m ((c : Thread nD τ).loc main_arg0)) shapeCasts_S4x2048x1024_S8192x1024 := by
  show StableHlo.after hostOps0 (fun b => m (c, b)) (Proc.devRef .tc main_v0) = _
  after_results
  rfl

theorem bookE_eq (c : Dev nD) : bookE m c = m ((c : Thread nD τ).loc main_arg1) := by
  show StableHlo.after hostOps0 (fun b => m (c, b)) (Proc.devRef .tc main_v1) = _
  after_results
  rfl

theorem bookW_eq (c : Dev nD) : bookW m c = m ((c : Thread nD τ).loc main_arg2) := by
  show StableHlo.after hostOps0 (fun b => m (c, b)) (Proc.devRef .tc main_v2) = _
  after_results
  rfl

theorem biasRow_eq (c : Dev nD) :
    biasRow m c = shapeCast S1x4096 (m ((c : Thread nD τ).loc main_arg3)) shapeCasts_S4096_S1x4096 := by
  show StableHlo.after hostOps0 (fun b => m (c, b)) (Proc.devRef .tc main_v3) = _
  after_results
  rfl

/-! ## The host operation after the region -/

theorem tail_eq (c : Dev nD) :
    Pipeline.afterTail₀ cfgs (dats m) 0 (V0 m) [hostOps1] c main_v5
      = shapeCast S4x2048x4096 (tiled (flatX m c) (bookE m c) (bookW m c) (biasRow m c)) shapeCasts_S8192x4096_S4x2048x4096 := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.tc.devRef main_v4)
      = tiled (flatX m c) (bookE m c) (bookW m c) (biasRow m c) :=
    (Pipeline.withArrays_arr spec0 launch0.win.arr_inj c _ _ 4).trans (final m c)
  rw [hw]
  rfl

/-! ## The result -/

/-- Row `2048 a + s` of the reshaped input is row `(a, s)` of the input. -/
theorem flat_row (X : (⟨3, ![4, 2048, 1024]⟩ : Shape).Idx → EReal) (a : Fin 4) (s : Fin 2048) (d : Fin 1024) (n : Fin 8192)
    (hn : n.val = a.val * 2048 + s.val) :
    shapeCast S8192x1024 X shapeCasts_S4x2048x1024_S8192x1024 (ix2 n d) = X (ix3 a s d) :=
  shapeCast_apply X shapeCasts_S4x2048x1024_S8192x1024 (ix2 n d) (ix3 a s d) (by
    rewrite [Shape.rowMajor_val_three, Shape.rowMajor_val_two]
    show (a.val * 2048 + s.val) * 1024 + d.val = n.val * 1024 + d.val
    rw [hn])

/-- The bias reshaped to one row reads, at `(0, q)`, the bias at `q`. -/
theorem bias_row (B : (⟨1, ![4096]⟩ : Shape).Idx → EReal) (q : Fin 4096) :
    shapeCast S1x4096 B shapeCasts_S4096_S1x4096 (ix2 (0 : Fin 1) q) = B (ix1 q) :=
  shapeCast_apply B shapeCasts_S4096_S1x4096 (ix2 (0 : Fin 1) q) (ix1 q) (by
    rewrite [Shape.rowMajor_val_one, Shape.rowMajor_val_two]
    show q.val = 0 * 4096 + q.val
    omega)

/-- THE PROGRAM'S RESULT: the tiled output, reshaped, is the row law's whole result of the four arguments. -/
theorem result_eq (c : Dev nD) :
    shapeCast S4x2048x4096 (tiled (flatX m c) (bookE m c) (bookW m c) (biasRow m c)) shapeCasts_S8192x4096_S4x2048x4096
      = result (m ((c : Thread nD τ).loc main_arg0)) (m ((c : Thread nD τ).loc main_arg1))
          (m ((c : Thread nD τ).loc main_arg2)) (m ((c : Thread nD τ).loc main_arg3)) := by
  rw [flatX_eq, bookE_eq, bookW_eq, biasRow_eq]
  funext i
  obtain ⟨a, s, q, rfl⟩ : ∃ (a : Fin 4) (s : Fin 2048) (q : Fin 4096), i = ix3 a s q := ⟨i 0, i 1, i 2, eq_ix3 i⟩
  have ha := a.isLt
  have hs := s.isLt
  rw [result_apply]
  refine (shapeCast_apply _ shapeCasts_S8192x4096_S4x2048x4096 (ix3 a s q)
    (ix2 (⟨a.val * 2048 + s.val, by omega⟩ : Fin 8192) q) (by
      rewrite [Shape.rowMajor_val_two, Shape.rowMajor_val_three]
      rfl)).trans ?_
  rw [tiled_apply]
  exact out_congr (fun d => flat_row _ a s d _ rfl) rfl rfl (fun q' => bias_row _ q') rfl

/-! ## The run -/

/-- Every weakly fair execution of the program terminates with its result at the row law's whole result of the four
    arguments, and the arguments unchanged. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v5 (Pipeline.mem_restRefs_of main_v5 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelRun

end
-- ==== Proof.lean ====
/- Codebook attention with a residual, a linear layer and a leaky rectifier: the fused kernel against its reference.

   Both programs compute, for every row `x` of the input (4 × 2048 rows of 1024 numbers), the same function of that row,
   of the codebook `E`, of the weights `W` and of the bias (Proof/RowLaw.lean): the softmax of the row's scores against
   the codebook's rows, the codebook averaged by that softmax and added back to the row, the linear layer, and the
   leaky rectifier. The reference computes it on all 8192 rows at once (Proof/RefRow.lean, over the generated reading of
   its operations); the kernel computes it tile by tile, 256 rows at each of 32 grid points, each tile row depending on
   its own input row alone (Proof/TileRow.lean), the tiles filling the output (Proof/TileArray.lean), the host
   reshapes around the kernel matching the reference's (Proof/KernelRun.lean). On the extended reals the kernel's
   narrowing of its matrix operands is the identity and every sum is a finite sum in one piece on both sides, so
   the two results are equal entry by entry with no use of the inputs' finiteness. The kernel's idealization
   rewrote no operation, so there is nothing to preserve. -/
import proofs.«429630_j76433238000392_3_alg».proof.Defs
import proofs.«429630_j76433238000392_3_alg».proof.Proof.Gen.Kernel
import proofs.«429630_j76433238000392_3_alg».proof.Proof.Gen.Kernel.Skeleton
import proofs.«429630_j76433238000392_3_alg».proof.Proof.Gen.Kernel.Launch
import proofs.«429630_j76433238000392_3_alg».proof.Proof.Gen.Kernel.Points
import proofs.«429630_j76433238000392_3_alg».proof.Proof.Gen.Kernel.Frame
import proofs.«429630_j76433238000392_3_alg».proof.Proof.Gen.KernelIdeal
import proofs.«429630_j76433238000392_3_alg».proof.Proof.Gen.KernelIdeal.Skeleton
import proofs.«429630_j76433238000392_3_alg».proof.Proof.Gen.KernelIdeal.Launch
import proofs.«429630_j76433238000392_3_alg».proof.Proof.Gen.KernelIdeal.Points
import proofs.«429630_j76433238000392_3_alg».proof.Proof.Gen.KernelIdeal.Frame
import proofs.«429630_j76433238000392_3_alg».proof.Proof.Gen.ReferenceIdeal
import proofs.«429630_j76433238000392_3_alg».proof.Proof.Gen.ReferenceIdeal.Run
import proofs.«429630_j76433238000392_3_alg».proof.Proof.Gen.ReferenceIdeal.Read
import proofs.«429630_j76433238000392_3_alg».proof.Proof.Gen.Pre_finite_inputs
import proofs.«429630_j76433238000392_3_alg».proof.Proof.RefRow
import proofs.«429630_j76433238000392_3_alg».proof.Proof.KernelRun
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the row law's whole result of the four arguments, which agree. -/
theorem algebraic : Cert.algebraic_KernelIdeal_ReferenceIdeal := by
  intro m ρ m' ρ' _ hagree
  refine ⟨_, Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.RefRow.result_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
